-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x17x2 : Shape := ⟨4, ![64, 8, 17, 2]⟩
abbrev S64x8x1x256x256 : Shape := ⟨5, ![64, 8, 1, 256, 256]⟩
abbrev S_ : Shape := ⟨0, ![]⟩

class Facts : Prop where
  bcast_S_S64x8x17x2 : S_.BroadcastsInDim S64x8x17x2 (![] : Fin 0 → Fin S64x8x17x2.rank)
  reducesTo_S64x8x17x2_S_d0_1_2_3 : S64x8x17x2.ReducesTo [0, 1, 2, 3] S_
  h_S_ : 0 < S_.numel
  bcast_S_S64x8x1x256x256 : S_.BroadcastsInDim S64x8x1x256x256 (![] : Fin 0 → Fin S64x8x1x256x256.rank)
  reducesTo_S64x8x1x256x256_S_d0_1_2_3_4 : S64x8x1x256x256.ReducesTo [0, 1, 2, 3, 4] S_

variable [Facts]

def fn {F : FTy → Type} [FloatOps F] (main_arg0 : FVec F S64x8x17x2 .f32) (main_arg1 : FVec F S64x8x1x256x256 .f32) : IVec S_ 1 :=
  let main_v0 : FVec F S64x8x17x2 .f32 := Host.absf main_arg0
  let main_cst : FVec F S_ .f32 := constant S_ .f32 0x7F800000#32
  let main_v1 : FVec F S64x8x17x2 .f32 := broadcastInDim S64x8x17x2 ![] bcast_S_S64x8x17x2 main_cst
  let main_v2 : IVec S64x8x17x2 1 := cmpf .olt main_v0 main_v1
  let main_c : IVec S_ 1 := constantI S_ 1 1#1
  let main_v3 : IVec S_ 1 := (fun x v => Host.reduce IntOp.andi x v reducesTo_S64x8x17x2_S_d0_1_2_3 h_S_) main_v2 main_c
  let main_v4 : FVec F S64x8x1x256x256 .f32 := Host.absf main_arg1
  let main_cst_0 : FVec F S_ .f32 := constant S_ .f32 0x7F800000#32
  let main_v5 : FVec F S64x8x1x256x256 .f32 := broadcastInDim S64x8x1x256x256 ![] bcast_S_S64x8x1x256x256 main_cst_0
  let main_v6 : IVec S64x8x1x256x256 1 := cmpf .olt main_v4 main_v5
  let main_c_1 : IVec S_ 1 := constantI S_ 1 1#1
  let main_v7 : IVec S_ 1 := (fun x v => Host.reduce IntOp.andi x v reducesTo_S64x8x1x256x256_S_d0_1_2_3_4 h_S_) main_v6 main_c_1
  let main_v8 : IVec S_ 1 := andi main_v3 main_v7
  main_v8
-- ==== Kernel.lean ====
abbrev S64x8x17x2 : Shape := ⟨4, ![64, 8, 17, 2]⟩
abbrev S64x8x1x256x256 : Shape := ⟨5, ![64, 8, 1, 256, 256]⟩
abbrev S64x8x17x1 : Shape := ⟨4, ![64, 8, 17, 1]⟩
abbrev S64x8x17 : Shape := ⟨3, ![64, 8, 17]⟩
abbrev S_ : Shape := ⟨0, ![]⟩
abbrev S512x17 : Shape := ⟨2, ![512, 17]⟩
abbrev S512x256x256 : Shape := ⟨3, ![512, 256, 256]⟩
abbrev S16x8x128 : Shape := ⟨3, ![16, 8, 128]⟩
abbrev S32x17 : Shape := ⟨2, ![32, 17]⟩
abbrev S32x256x256 : Shape := ⟨3, ![32, 256, 256]⟩
abbrev S1x8x128 : Shape := ⟨3, ![1, 8, 128]⟩
abbrev S32x17x256 : Shape := ⟨3, ![32, 17, 256]⟩
abbrev S32x17x1 : Shape := ⟨3, ![32, 17, 1]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 34
  | .vmem => 8
  | .smem => 0
  | _ => 0

abbrev bufTy : (tb : Table) → Fin (tcTables nBuf tb) → BufTy
  | .hbm, ⟨0, _⟩ => ⟨S64x8x17x2, .f32⟩
  | .hbm, ⟨1, _⟩ => ⟨S64x8x1x256x256, .f32⟩
  | .hbm, ⟨2, _⟩ => ⟨S64x8x17x2, .f32⟩
  | .hbm, ⟨3, _⟩ => ⟨S64x8x17x2, .i32⟩
  | .hbm, ⟨4, _⟩ => ⟨S64x8x17x1, .i32⟩
  | .hbm, ⟨5, _⟩ => ⟨S64x8x17, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64x8x17, .i32⟩
  | .hbm, ⟨10, _⟩ => ⟨S64x8x17, .i32⟩
  | .hbm, ⟨11, _⟩ => ⟨S_, .i32⟩
  | .hbm, ⟨12, _⟩ => ⟨S64x8x17, .i32⟩
  | .hbm, ⟨13, _⟩ => ⟨S64x8x17, .i32⟩
  | .hbm, ⟨14, _⟩ => ⟨S64x8x17x1, .i32⟩
  | .hbm, ⟨15, _⟩ => ⟨S64x8x17, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x8x17, .i32⟩
  | .hbm, ⟨20, _⟩ => ⟨S64x8x17, .i32⟩
  | .hbm, ⟨21, _⟩ => ⟨S_, .i32⟩
  | .hbm, ⟨22, _⟩ => ⟨S64x8x17, .i32⟩
  | .hbm, ⟨23, _⟩ => ⟨S64x8x17, .i32⟩
  | .hbm, ⟨24, _⟩ => ⟨S512x17, .i32⟩
  | .hbm, ⟨25, _⟩ => ⟨S512x17, .i32⟩
  | .hbm, ⟨26, _⟩ => ⟨S512x256x256, .f32⟩
  | .hbm, ⟨27, _⟩ => ⟨S16x8x128, .f32⟩
  | .hbm, ⟨28, _⟩ => ⟨S16x1x1, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S32x17, .i32⟩
  | .local _ .vmem, ⟨1, _⟩ => ⟨S32x17, .i32⟩
  | .local _ .vmem, ⟨2, _⟩ => ⟨S32x17, .i32⟩
  | .local _ .vmem, ⟨3, _⟩ => ⟨S32x17, .i32⟩
  | .local _ .vmem, ⟨4, _⟩ => ⟨S32x256x256, .f32⟩
  | .local _ .vmem, ⟨5, _⟩ => ⟨S32x256x256, .f32⟩
  | .local _ .vmem, ⟨6, _⟩ => ⟨S1x8x128, .f32⟩
  | .local _ .vmem, ⟨7, _⟩ => ⟨S1x8x128, .f32⟩
  | _, _ => ⟨S64x8x17x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x17 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x17 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x8x17x2_S64x8x17x1_0_0_0_0 : S64x8x17x2.Slices ![0, 0, 0, 0] S64x8x17x1
  shapeCasts_S64x8x17x1_S64x8x17 : S64x8x17x1.ShapeCasts S64x8x17
  bcast_S_S64x8x17 : S_.BroadcastsInDim S64x8x17 (![] : Fin 0 → Fin S64x8x17.rank)
  slices_S64x8x17x2_S64x8x17x1_0_0_0_1 : S64x8x17x2.Slices ![0, 0, 0, 1] S64x8x17x1
  shapeCasts_S64x8x17_S512x17 : S64x8x17.ShapeCasts S512x17
  shapeCasts_S64x8x1x256x256_S512x256x256 : S64x8x1x256x256.ShapeCasts S512x256x256
  inb_S32x17_S32x17_0_0 : ∀ a, (![0, 0] : Fin 2 → Nat) a + S32x17.size a ≤ S32x17.size a
  h_S32x17 : 0 < S32x17.numel
  shapeCasts_S32x17_S32x17 : S32x17.ShapeCasts S32x17
  iota_S32x17x256_d2_w32 : S32x17x256.Iotas .tc 32 [2]
  shapeCasts_S32x17_S32x17x1 : S32x17.ShapeCasts S32x17x1
  broadcasts_S32x17x1_S32x17x256 : S32x17x1.Broadcasts S32x17x256
  natLt_1_32 : 1 < 32
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  reduces_S32x17x256_S32x17 : S32x17x256.Reduces [2] S32x17
  reduces_S32x17_S32 : S32x17.Reduces [1] S32
  shapeCasts_S32_S32x1 : S32.ShapeCasts S32x1
  reduces_S32x1_S1 : S32x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  dot_S32x17x256_S32x256x256_S32x17x256_2_1_1_2_0_0_wf : DotDims.WF S32x17x256 S32x256x256 S32x17x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x17.size a ≤ S512x17.size a
  hwx0_0 : ∀ i : grid0.Coords, EltTy.bits .i32 = 32 ∨ (Rect.block (s := S512x17) S32x17.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x17.size a ≤ S512x17.size a
  hwx0_1 : ∀ i : grid0.Coords, EltTy.bits .i32 = 32 ∨ (Rect.block (s := S512x17) S32x17.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S512x256x256.size a
  hwx0_2 : ∀ i : grid0.Coords, EltTy.bits .f32 = 32 ∨ (Rect.block (s := S512x256x256) S32x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def dot_S32x17x256_S32x256x256_S32x17x256_2_1_1_2_0_0 : DotDims S32x17x256 S32x256x256 S32x17x256 where
  lhsContracting := [2]
  rhsContracting := [1]
  lhsNonContracting := [1]
  rhsNonContracting := [2]
  lhsBatch := [0]
  rhsBatch := [0]
  wf := dot_S32x17x256_S32x256x256_S32x17x256_2_1_1_2_0_0_wf

abbrev win0_0 : Pipeline.Window sig grid0 :=
  Pipeline.Window.ofSpec (Memref.whole main_v8) S32x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S32x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S32x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8x17x2 : Shape := ⟨4, ![64, 8, 17, 2]⟩
abbrev S64x8x1x256x256 : Shape := ⟨5, ![64, 8, 1, 256, 256]⟩
abbrev S64x8x17x1 : Shape := ⟨4, ![64, 8, 17, 1]⟩
abbrev S64x8x17 : Shape := ⟨3, ![64, 8, 17]⟩
abbrev S_ : Shape := ⟨0, ![]⟩
abbrev S64x8x256x256 : Shape := ⟨4, ![64, 8, 256, 256]⟩
abbrev S64 : Shape := ⟨1, ![64]⟩
abbrev S64x1x1 : Shape := ⟨3, ![64, 1, 1]⟩
abbrev S8 : Shape := ⟨1, ![8]⟩
abbrev S1x8x1 : Shape := ⟨3, ![1, 8, 1]⟩
abbrev S64x8x17x4 : Shape := ⟨4, ![64, 8, 17, 4]⟩

abbrev nBuf : Space → Nat
  | .hbm => 71
  | .vmem => 0
  | .smem => 0
  | _ => 0

abbrev bufTy : (tb : Table) → Fin (tcTables nBuf tb) → BufTy
  | .hbm, ⟨0, _⟩ => ⟨S64x8x17x2, .f32⟩
  | .hbm, ⟨1, _⟩ => ⟨S64x8x1x256x256, .f32⟩
  | .hbm, ⟨2, _⟩ => ⟨S64x8x17x2, .f32⟩
  | .hbm, ⟨3, _⟩ => ⟨S64x8x17x2, .i32⟩
  | .hbm, ⟨4, _⟩ => ⟨S64x8x17x1, .i32⟩
  | .hbm, ⟨5, _⟩ => ⟨S64x8x17, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64x8x17, .i32⟩
  | .hbm, ⟨10, _⟩ => ⟨S64x8x17, .i32⟩
  | .hbm, ⟨11, _⟩ => ⟨S_, .i32⟩
  | .hbm, ⟨12, _⟩ => ⟨S64x8x17, .i32⟩
  | .hbm, ⟨13, _⟩ => ⟨S64x8x17, .i32⟩
  | .hbm, ⟨14, _⟩ => ⟨S64x8x17x1, .i32⟩
  | .hbm, ⟨15, _⟩ => ⟨S64x8x17, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x8x17, .i32⟩
  | .hbm, ⟨20, _⟩ => ⟨S64x8x17, .i32⟩
  | .hbm, ⟨21, _⟩ => ⟨S_, .i32⟩
  | .hbm, ⟨22, _⟩ => ⟨S64x8x17, .i32⟩
  | .hbm, ⟨23, _⟩ => ⟨S64x8x17, .i32⟩
  | .hbm, ⟨24, _⟩ => ⟨S64x8x256x256, .f32⟩
  | .hbm, ⟨25, _⟩ => ⟨S64, .i32⟩
  | .hbm, ⟨26, _⟩ => ⟨S64x1x1, .i32⟩
  | .hbm, ⟨27, _⟩ => ⟨S8, .i32⟩
  | .hbm, ⟨28, _⟩ => ⟨S1x8x1, .i32⟩
  | .hbm, ⟨29, _⟩ => ⟨S_, .i32⟩
  | .hbm, ⟨30, _⟩ => ⟨S64x1x1, .i32⟩
  | .hbm, ⟨31, _⟩ => ⟨S64x1x1, .i1⟩
  | .hbm, ⟨32, _⟩ => ⟨S_, .i32⟩
  | .hbm, ⟨33, _⟩ => ⟨S64x1x1, .i32⟩
  | .hbm, ⟨34, _⟩ => ⟨S64x1x1, .i32⟩
  | .hbm, ⟨35, _⟩ => ⟨S64x1x1, .i32⟩
  | .hbm, ⟨36, _⟩ => ⟨S_, .i32⟩
  | .hbm, ⟨37, _⟩ => ⟨S1x8x1, .i32⟩
  | .hbm, ⟨38, _⟩ => ⟨S1x8x1, .i1⟩
  | .hbm, ⟨39, _⟩ => ⟨S_, .i32⟩
  | .hbm, ⟨40, _⟩ => ⟨S1x8x1, .i32⟩
  | .hbm, ⟨41, _⟩ => ⟨S1x8x1, .i32⟩
  | .hbm, ⟨42, _⟩ => ⟨S1x8x1, .i32⟩
  | .hbm, ⟨43, _⟩ => ⟨S_, .i32⟩
  | .hbm, ⟨44, _⟩ => ⟨S64x8x17, .i32⟩
  | .hbm, ⟨45, _⟩ => ⟨S64x8x17, .i1⟩
  | .hbm, ⟨46, _⟩ => ⟨S_, .i32⟩
  | .hbm, ⟨47, _⟩ => ⟨S64x8x17, .i32⟩
  | .hbm, ⟨48, _⟩ => ⟨S64x8x17, .i32⟩
  | .hbm, ⟨49, _⟩ => ⟨S64x8x17, .i32⟩
  | .hbm, ⟨50, _⟩ => ⟨S_, .i32⟩
  | .hbm, ⟨51, _⟩ => ⟨S64x8x17, .i32⟩
  | .hbm, ⟨52, _⟩ => ⟨S64x8x17, .i1⟩
  | .hbm, ⟨53, _⟩ => ⟨S_, .i32⟩
  | .hbm, ⟨54, _⟩ => ⟨S64x8x17, .i32⟩
  | .hbm, ⟨55, _⟩ => ⟨S64x8x17, .i32⟩
  | .hbm, ⟨56, _⟩ => ⟨S64x8x17, .i32⟩
  | .hbm, ⟨57, _⟩ => ⟨S64x8x17, .i32⟩
  | .hbm, ⟨58, _⟩ => ⟨S64x8x17, .i32⟩
  | .hbm, ⟨59, _⟩ => ⟨S64x8x17x1, .i32⟩
  | .hbm, ⟨60, _⟩ => ⟨S64x8x17x1, .i32⟩
  | .hbm, ⟨61, _⟩ => ⟨S64x8x17x1, .i32⟩
  | .hbm, ⟨62, _⟩ => ⟨S64x8x17x1, .i32⟩
  | .hbm, ⟨63, _⟩ => ⟨S64x8x17x4, .i32⟩
  | .hbm, ⟨64, _⟩ => ⟨S64x8x17, .f32⟩
  | .hbm, ⟨65, _⟩ => ⟨S64x8x17, .f32⟩
  | .hbm, ⟨66, _⟩ => ⟨S64x8x17, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S64x8x17x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  slices_S64x8x17x2_S64x8x17x1_0_0_0_0 : S64x8x17x2.Slices ![0, 0, 0, 0] S64x8x17x1
  shapeCasts_S64x8x17x1_S64x8x17 : S64x8x17x1.ShapeCasts S64x8x17
  bcast_S_S64x8x17 : S_.BroadcastsInDim S64x8x17 (![] : Fin 0 → Fin S64x8x17.rank)
  slices_S64x8x17x2_S64x8x17x1_0_0_0_1 : S64x8x17x2.Slices ![0, 0, 0, 1] S64x8x17x1
  shapeCasts_S64x8x1x256x256_S64x8x256x256 : S64x8x1x256x256.ShapeCasts S64x8x256x256
  bcast_S64_S64x1x1_0 : S64.BroadcastsInDim S64x1x1 (![0] : Fin 1 → Fin S64x1x1.rank)
  bcast_S8_S1x8x1_1 : S8.BroadcastsInDim S1x8x1 (![1] : Fin 1 → Fin S1x8x1.rank)
  bcast_S_S64x1x1 : S_.BroadcastsInDim S64x1x1 (![] : Fin 0 → Fin S64x1x1.rank)
  bcast_S_S1x8x1 : S_.BroadcastsInDim S1x8x1 (![] : Fin 0 → Fin S1x8x1.rank)
  bcast_S64x1x1_S64x8x17_0_1_2 : S64x1x1.BroadcastsInDim S64x8x17 (![0, 1, 2] : Fin 3 → Fin S64x8x17.rank)
  bcast_S1x8x1_S64x8x17_0_1_2 : S1x8x1.BroadcastsInDim S64x8x17 (![0, 1, 2] : Fin 3 → Fin S64x8x17.rank)
  bcast_S64x8x17_S64x8x17x1_0_1_2 : S64x8x17.BroadcastsInDim S64x8x17x1 (![0, 1, 2] : Fin 3 → Fin S64x8x17x1.rank)
  concatenates_S64x8x17x1_S64x8x17x1_S64x8x17x1_S64x8x17x1_S64x8x17x4_d3 : Shape.Concatenates [S64x8x17x1, S64x8x17x1, S64x8x17x1, S64x8x17x1] S64x8x17x4 3
  reducesTo_S64x8x17_S_d0_1_2 : S64x8x17.ReducesTo [0, 1, 2] S_
  h_S_ : 0 < S_.numel
  gather_S64x8x256x256_S64x8x17x4_S64x8x17_n_0123_n_n_0123_3_1111_wf : GatherDims.WF S64x8x256x256 S64x8x17x4 S64x8x17 [] [0, 1, 2, 3] [] [0, 1, 2, 3] [] 3 ![1, 1, 1, 1]

variable [Facts₀]

def gather_S64x8x256x256_S64x8x17x4_S64x8x17_n_0123_n_n_0123_3_1111 : GatherDims S64x8x256x256 S64x8x17x4 S64x8x17 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S64x8x256x256_S64x8x17x4_S64x8x17_n_0123_n_n_0123_3_1111_wf

class Facts : Prop extends Facts₀ where

variable [Facts]
-- ==== Proof.Words.lean ====
/-
  The arithmetic under the keypoint heat-map loss, free of any program.

  Words.  A keypoint coordinate, rounded up and converted to a signed 32-bit word, is clipped into [0, 255]:
  first the larger of it and 0, then the smaller of that and 255.  The clipped word is a natural number below
  256, it is not negative as a signed word, and it is one of the 256 row (or column) numbers exactly when the
  row number, written as a word, equals it.

  One-hot rows.  Comparing the row numbers 0 … 255 with such a word, widening the comparison's bit and reading
  it as a number gives the vector that is 1 at that row and 0 elsewhere.  On the extended reals 0 · x = 0 and
  1 · x = x for EVERY x (the infinities included), so the sum over the rows of that vector times any column of
  values is the value in that row: the product with a one-hot vector is a selection, with no finiteness needed.

  Sums.  On the extended reals addition is commutative and associative, so 512 rows may be summed as 16 groups of
  32 or as 64 groups of 8.
-/
import Idealize.ShloMosaic.PureOps.Ideal.Laws
import Idealize.ShloMosaic.Lib.ValueIdx
import Idealize.ShloMosaic.Lib.WordArith

noncomputable section

open scoped BigOperators

namespace Cert.HeatmapLoss

open Idealize.ShloMosaic Idealize.ShloMosaic.ValueIdx Idealize.ShloMosaic.WordArith

/-! ## A word clipped into [0, 255] -/

/-- The signed word `w` clipped into [0, 255]. -/
def clip (w : BitVec 32) : BitVec 32 := IntOp.minsi 255#32 (IntOp.maxsi 0#32 w)

/-- The clipped word, as a natural number, is the smaller of 255 and the word clamped at zero. -/
theorem clip_toNat (w : BitVec 32) : (clip w).toNat = min 255 (IntOp.maxsi 0#32 w).toNat := by
  have h := two_mul_toNat_maxsi_zero_lt w
  have h' : 2 * (IntOp.maxsi 0#32 w).toNat < 2 ^ 32 := h
  unfold clip
  rw [toNat_minsi_of_lt _ _ (by decide) (by omega)]
  rfl

/-- It is at most 255. -/
theorem clip_lt (w : BitVec 32) : (clip w).toNat < 256 := by
  rw [clip_toNat]; omega

/-- Read as a signed integer it is its natural value: its top bit is clear. -/
theorem clip_toInt (w : BitVec 32) : (clip w).toInt = ((clip w).toNat : Int) := by
  have h := clip_lt w
  have e := BitVec.toInt_eq_toNat_cond (clip w)
  split at e <;> omega

/-- It is not below zero as a signed word. -/
theorem clip_not_slt_zero (w : BitVec 32) : IntOp.cmpi .slt (clip w) 0#32 = 0#1 := by
  have h : ¬ ((clip w).slt 0#32 = true) := by
    rw [BitVec.slt_iff_toInt_lt, clip_toInt]
    have h0 : (0#32 : BitVec 32).toInt = 0 := by decide
    rw [h0]; omega
  show BitVec.ofBool ((clip w).slt 0#32) = 0#1
  rw [Bool.eq_false_iff.mpr h]; rfl

/-- The signed reading clamped into [0, 255] is the natural value again. -/
theorem clip_clamp (w : BitVec 32) : min (clip w).toInt.toNat 255 = (clip w).toNat := by
  have h := clip_lt w
  rw [clip_toInt]; omega

/-! ## The one-hot row of a word below 256 -/

/-- Row number `h` (below 256), written as a word, equals the word `c` (below 256) exactly when `h` is `c`'s value. -/
theorem ofNat_eq_iff (h : Nat) (hh : h < 256) (c : BitVec 32) : BitVec.ofNat 32 h = c ↔ h = c.toNat := by
  constructor
  · intro e
    rw [← e, BitVec.toNat_ofNat, Nat.mod_eq_of_lt (by omega)]
  · intro e
    rw [e]
    apply BitVec.eq_of_toNat_eq
    rw [BitVec.toNat_ofNat]; exact Nat.mod_eq_of_lt c.isLt

/-- The comparison "row number = word", widened and read as a number: 1 at the word's row, 0 at every other. -/
theorem onehot (h : Nat) (hh : h < 256) (c : BitVec 32) :
    (FloatOps.sitofp (F := Ideal) .f32 ((IntOp.cmpi .eq (BitVec.ofNat 32 h) c).setWidth 32) : EReal)
      = if h = c.toNat then 1 else 0 := by
  show (((((BitVec.ofBool (BitVec.ofNat 32 h == c)).setWidth 32).toInt : Int) : ℝ) : EReal) = _
  by_cases e : h = c.toNat
  · rw [if_pos e, (beq_iff_eq).mpr ((ofNat_eq_iff h hh c).mpr e)]
    have : ((BitVec.ofBool true).setWidth 32).toInt = 1 := by decide
    rw [this]; norm_num
  · rw [if_neg e]
    have hne : (BitVec.ofNat 32 h == c) = false := by
      rw [beq_eq_false_iff_ne]; exact fun h' => e ((ofNat_eq_iff h hh c).mp h')
    rw [hne]
    have : ((BitVec.ofBool false).setWidth 32).toInt = 0 := by decide
    rw [this]; norm_num

/-- A one-hot row times a column of extended reals, summed over the rows, is the column's entry in that row. -/
theorem sum_onehot_mul (n : Nat) (hn : n < 256) (f : Fin 256 → EReal) :
    ∑ h : Fin 256, (if h.val = n then (1 : EReal) else 0) * f h = f ⟨n, hn⟩ := by
  rw [Finset.sum_eq_single (⟨n, hn⟩ : Fin 256)]
  · rw [if_pos rfl, one_mul]
  · intro b _ hb
    rw [if_neg (fun e => hb (Fin.ext e)), zero_mul]
  · intro h; exact absurd (Finset.mem_univ _) h

/-- The same with the one-hot row as the right factor. -/
theorem sum_mul_onehot (n : Nat) (hn : n < 256) (f : Fin 256 → EReal) :
    ∑ h : Fin 256, f h * (if h.val = n then (1 : EReal) else 0) = f ⟨n, hn⟩ := by
  rw [Finset.sum_eq_single (⟨n, hn⟩ : Fin 256)]
  · rw [if_pos rfl, mul_one]
  · intro b _ hb
    rw [if_neg (fun e => hb (Fin.ext e)), mul_zero]
  · intro h; exact absurd (Finset.mem_univ _) h

/-! ## Rows summed group by group -/

/-- A sum over `m · n` rows is the sum over `m` groups of `n` consecutive rows. -/
theorem sum_groups {M : Type*} [AddCommMonoid M] (m n : Nat) (F : Fin (m * n) → M) :
    ∑ r, F r = ∑ a : Fin m, ∑ b : Fin n, F (finProdFinEquiv (a, b)) := by
  rw [← Equiv.sum_comp finProdFinEquiv F, Fintype.sum_prod_type]

/-- Row `b` of group `a` is row `b + n · a`. -/
theorem finProdFinEquiv_val (m n : Nat) (a : Fin m) (b : Fin n) : (finProdFinEquiv (a, b) : Fin (m * n)).val = b.val + n * a.val := rfl

/-- 512 rows as 16 groups of 32 and as 64 groups of 8: the same sum. -/
theorem sum_16x32_eq_sum_64x8 {M : Type*} [AddCommMonoid M] (F : Fin 512 → M) :
    ∑ t : Fin 16, ∑ g : Fin 32, F ⟨g.val + 32 * t.val, by have := g.isLt; have := t.isLt; omega⟩
      = ∑ b : Fin 64, ∑ v : Fin 8, F ⟨v.val + 8 * b.val, by have := v.isLt; have := b.isLt; omega⟩ := by
  have h1 := sum_groups 16 32 (fun r : Fin (16 * 32) => F ⟨r.val, r.isLt⟩)
  have h2 := sum_groups 64 8 (fun r : Fin (64 * 8) => F ⟨r.val, r.isLt⟩)
  exact h1.symm.trans h2

/-- 512 rows as 16 groups of 32. -/
theorem sum_rows_16x32 {M : Type*} [AddCommMonoid M] (F : Fin 512 → M) :
    ∑ r, F r = ∑ t : Fin 16, ∑ g : Fin 32, F ⟨g.val + 32 * t.val, by have := g.isLt; have := t.isLt; omega⟩ :=
  sum_groups 16 32 (fun r : Fin (16 * 32) => F ⟨r.val, r.isLt⟩)

/-- 512 rows as 64 groups of 8. -/
theorem sum_rows_64x8 {M : Type*} [AddCommMonoid M] (F : Fin 512 → M) :
    ∑ r, F r = ∑ b : Fin 64, ∑ v : Fin 8, F ⟨v.val + 8 * b.val, by have := v.isLt; have := b.isLt; omega⟩ :=
  sum_groups 64 8 (fun r : Fin (64 * 8) => F ⟨r.val, r.isLt⟩)

/-! ## The loss as one function of the two argument arrays -/

/-- The keypoints: 64 × 8 tiles, 17 joints each, a pair (x, y) per joint. -/
abbrev SKp : Shape := ⟨4, ![64, 8, 17, 2]⟩
/-- The heat maps: 64 × 8 tiles of 1 × 256 × 256. -/
abbrev SHm : Shape := ⟨5, ![64, 8, 1, 256, 256]⟩

/-- The word a keypoint coordinate becomes: rounded up, converted to a signed 32-bit integer. -/
def kpWord (kp : FVec Ideal SKp .f32) (i : SKp.Idx) : BitVec 32 :=
  FloatOps.fptosi (F := Ideal) 32 (FloatOps.hostUnary (F := Ideal) .ceil (kp i))

/-- Tile `r` of the 512 is tile (r / 8, r mod 8) of the 64 × 8. -/
def rowB (r : Fin 512) : Fin 64 := ⟨r.val / 8, by have := r.isLt; omega⟩
def rowV (r : Fin 512) : Fin 8 := ⟨r.val % 8, by omega⟩

/-- The column number (k = 0) or row number (k = 1) of joint `j` of tile `r`: the clipped word. -/
def coord (kp : FVec Ideal SKp .f32) (r : Fin 512) (j : Fin 17) (k : Fin 2) : BitVec 32 :=
  clip (kpWord kp (ix4 (rowB r) (rowV r) j k))

/-- The heat-map value a joint picks: its tile's entry at (row y, column x). -/
def picked (kp : FVec Ideal SKp .f32) (hm : FVec Ideal SHm .f32) (r : Fin 512) (j : Fin 17) : EReal :=
  hm (ix5 (rowB r) (rowV r) 0 ⟨(coord kp r j 1).toNat, clip_lt _⟩ ⟨(coord kp r j 0).toNat, clip_lt _⟩)

/-- One tile's part of the sum: the sum over its joints of −log of the picked value. -/
def tileSum (kp : FVec Ideal SKp .f32) (hm : FVec Ideal SHm .f32) (r : Fin 512) : EReal :=
  ∑ j : Fin 17, -(Ideal.log (picked kp hm r j))

/-- THE LOSS: the sum over all tiles and joints of −log of the picked value, over 8704 = 64 · 8 · 17. -/
def loss (kp : FVec Ideal SKp .f32) (hm : FVec Ideal SHm .f32) : EReal :=
  Ideal.div (0 + ∑ r : Fin 512, tileSum kp hm r) (Ideal.ofBits .f32 0x46080000#32)

/-- Tile v + 8 b of the 512 is tile (b, v) of the 64 × 8. -/
theorem rowB_mk (b : Fin 64) (v : Fin 8) (h : v.val + 8 * b.val < 512) : rowB ⟨v.val + 8 * b.val, h⟩ = b :=
  Fin.ext (by show (v.val + 8 * b.val) / 8 = b.val; have := v.isLt; omega)
theorem rowV_mk (b : Fin 64) (v : Fin 8) (h : v.val + 8 * b.val < 512) : rowV ⟨v.val + 8 * b.val, h⟩ = v :=
  Fin.ext (by show (v.val + 8 * b.val) % 8 = v.val; have := v.isLt; omega)

/-- The picked value of joint `j` of tile (b, v), with the tile named by its two coordinates. -/
theorem picked_mk (kp : FVec Ideal SKp .f32) (hm : FVec Ideal SHm .f32) (b : Fin 64) (v : Fin 8) (j : Fin 17)
    (h : v.val + 8 * b.val < 512) :
    picked kp hm ⟨v.val + 8 * b.val, h⟩ j
      = hm (ix5 b v 0 ⟨(clip (kpWord kp (ix4 b v j 1))).toNat, clip_lt _⟩ ⟨(clip (kpWord kp (ix4 b v j 0))).toNat, clip_lt _⟩) := by
  unfold picked
  congr 1
  funext a; apply Fin.ext
  match a with
  | ⟨0, _⟩ => exact congrArg Fin.val (rowB_mk b v h)
  | ⟨1, _⟩ => exact congrArg Fin.val (rowV_mk b v h)
  | ⟨2, _⟩ => rfl
  | ⟨3, _⟩ => show (coord kp ⟨v.val + 8 * b.val, h⟩ j 1).toNat = _; unfold coord; rw [rowB_mk, rowV_mk]
  | ⟨4, _⟩ => show (coord kp ⟨v.val + 8 * b.val, h⟩ j 0).toNat = _; unfold coord; rw [rowB_mk, rowV_mk]

/-! ## Words the reference's indexing meets -/

/-- A word that is not negative is left alone by "add the extent if negative". -/
theorem wrap_of_not_slt {c k : BitVec 32} (h : IntOp.cmpi .slt c 0#32 = 0#1) :
    Scalar.select (IntOp.cmpi .slt c 0#32) (IntOp.addi c k) c = c := by
  rw [h]; exact select_zero _ _

/-- A small natural number written as a word is not negative. -/
theorem ofNat_not_slt_zero (n : Nat) (hn : n < 2 ^ 31) : IntOp.cmpi .slt (BitVec.ofNat 32 n) 0#32 = 0#1 := by
  have h : ¬ ((BitVec.ofNat 32 n).slt 0#32 = true) := by
    rw [BitVec.slt_iff_toInt_lt, toInt_ofNat_small n hn]
    have h0 : (0#32 : BitVec 32).toInt = 0 := by decide
    rw [h0]; omega
  show BitVec.ofBool ((BitVec.ofNat 32 n).slt 0#32) = 0#1
  rw [Bool.eq_false_iff.mpr h]; rfl

/-- Read signed and clamped to an extent it is below, it is itself. -/
theorem ofNat_clamp (n e : Nat) (hn : n < 2 ^ 31) (hne : n ≤ e) : min (BitVec.ofNat 32 n).toInt.toNat e = n := by
  rw [toInt_ofNat_small n hn]; omega

end Cert.HeatmapLoss

end
-- ==== Proof.Body.lean ====
/-
  What the kernel body computes from one grid step's blocks, read on the extended reals.

  A step holds 32 heat-map tiles (each 256 × 256) and, for each tile, 17 joints with a column number x and a row
  number y.  The body builds, for every (tile g, joint j), the one-hot row vector of y and the one-hot column vector
  of x over 0 … 255; multiplies the one-hot rows into the tile (a batched matrix product: for every column w the sum
  over rows h of onehot_y(h) · tile(h, w), which is row y of the tile); multiplies by the one-hot columns and sums
  over w (which is entry (y, x) of the tile); takes 0 − log of it; and sums over the joints and then over the tiles.
  Every entry of the step's output block holds that one total.

  So, when every x and y is below 256, each entry of the block is
      ∑ g < 32, ∑ j < 17, −log tile_g(y(g, j), x(g, j)).
-/
import proofs.«402471_j75720273428986_3_alg».proof.Proof.Gen.KernelIdeal.Skeleton
import proofs.«402471_j75720273428986_3_alg».proof.Proof.Words
import Idealize.ShloMosaic.Lib.Pipeline.Value
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx Cert.HeatmapLoss

/-! ## The layout steps at the end of the body, each read at an index -/

/-- The one total, copied into every entry of the 1 × 8 × 128 block. -/
theorem splat_apply (v : FVec Ideal S1x1x1 .f32) (y : S1x8x128.Idx) :
    broadcastTo S1x8x128 v broadcasts_S1x1x1_S1x8x128 y = v (ix3 0 0 0) :=
  broadcastTo_apply v broadcasts_S1x1x1_S1x8x128 y (ix3 0 0 0) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl])

/-- A one-entry vector viewed as 1 × 1 and then 1 × 1 × 1 keeps its entry. -/
theorem unit_casts_apply (v : FVec Ideal S1 .f32) :
    shapeCast S1x1x1 (shapeCast S1x1 v shapeCasts_S1_S1x1) shapeCasts_S1x1_S1x1x1 (ix3 0 0 0) = v (ix1 0) := by
  rw [shapeCast_apply _ shapeCasts_S1x1_S1x1x1 (ix3 0 0 0) (ix2 0 0) (by rw [Shape.rowMajor_val_two, Shape.rowMajor_val_three]; rfl),
    shapeCast_apply _ shapeCasts_S1_S1x1 (ix2 0 0) (ix1 0) (by rw [Shape.rowMajor_val_one, Shape.rowMajor_val_two]; rfl)]

/-- A 32-vector viewed as a 32 × 1 column keeps its entries. -/
theorem column_cast_apply (v : FVec Ideal S32 .f32) (g : Fin 32) :
    shapeCast S32x1 v shapeCasts_S32_S32x1 (ix2 g 0) = v (ix1 g) :=
  shapeCast_apply v shapeCasts_S32_S32x1 (ix2 g 0) (ix1 g) (by
    rw [Shape.rowMajor_val_one, Shape.rowMajor_val_two]; show g.val = g.val * 1 + 0; omega)

/-! ## The three sums -/

/-- The sum down the 32-entry column. -/
theorem sum_tiles_apply (v : FVec Ideal S32x1 .f32) :
    multiReduction .add [0] S1 v 0x00000000#32 reduces_S32x1_S1 (.inl rfl) rfl (ix1 0) = ∑ g : Fin 32, v (ix2 g 0) := by
  refine (Ideal.multiReduction_add_single v 0x00000000#32 reduces_S32x1_S1 (.inl rfl) rfl (ix1 0)).trans ?_
  refine Finset.sum_congr rfl fun g _ => congrArg v ?_
  funext a; apply Fin.ext
  match a with
  | ⟨0, _⟩ => rfl
  | ⟨1, _⟩ => rfl

/-- The sum over the 17 joints of a tile. -/
theorem sum_joints_apply (v : FVec Ideal S32x17 .f32) (g : Fin 32) :
    multiReduction .add [1] S32 v 0x00000000#32 reduces_S32x17_S32 (.inl rfl) rfl (ix1 g) = ∑ j : Fin 17, v (ix2 g j) := by
  refine (Ideal.multiReduction_add_single v 0x00000000#32 reduces_S32x17_S32 (.inl rfl) rfl (ix1 g)).trans ?_
  refine Finset.sum_congr rfl fun j _ => congrArg v ?_
  funext a; apply Fin.ext
  match a with
  | ⟨0, _⟩ => rfl
  | ⟨1, _⟩ => rfl

/-- The sum over the 256 columns. -/
theorem sum_cols_apply (v : FVec Ideal S32x17x256 .f32) (g : Fin 32) (j : Fin 17) :
    multiReduction .add [2] S32x17 v 0x00000000#32 reduces_S32x17x256_S32x17 (.inl rfl) rfl (ix2 g j)
      = ∑ w : Fin 256, v (ix3 g j w) := by
  refine (Ideal.multiReduction_add_single v 0x00000000#32 reduces_S32x17x256_S32x17 (.inl rfl) rfl (ix2 g j)).trans ?_
  refine Finset.sum_congr rfl fun w _ => congrArg v ?_
  funext a; apply Fin.ext
  match a with
  | ⟨0, _⟩ => rfl
  | ⟨1, _⟩ => rfl
  | ⟨2, _⟩ => rfl

/-! ## The batched product: for each tile, (17 × 256) by (256 × 256) -/

/-- The dimension numbers of the body's product: tile axis shared, the left operand's last axis contracted with the
    right operand's middle axis. -/
abbrev tileDot : DotDims S32x17x256 S32x256x256 S32x17x256 := dot_S32x17x256_S32x256x256_S32x17x256_2_1_1_2_0_0

/-- At output entry (g, j, w) and contracted row h the left operand is read at (g, j, h). -/
theorem tileDot_lhsIdx (g : Fin 32) (j : Fin 17) (w h : Fin 256) :
    tileDot.lhsIdx (ix3 g j w) ((contrEquiv1 tileDot 256 rfl rfl).symm h) = ix3 g j h := by
  have hh := contrEquiv1_symm_val tileDot 256 rfl rfl h
  funext a
  apply Fin.ext
  match a with
  | ⟨0, _⟩ => rfl
  | ⟨1, _⟩ => rfl
  | ⟨2, _⟩ => refine Eq.trans ?_ hh; rfl

/-- … and the right operand at (g, h, w). -/
theorem tileDot_rhsIdx (g : Fin 32) (j : Fin 17) (w h : Fin 256) :
    tileDot.rhsIdx (ix3 g j w) ((contrEquiv1 tileDot 256 rfl rfl).symm h) = ix3 g h w := by
  have hh := contrEquiv1_symm_val tileDot 256 rfl rfl h
  funext a
  apply Fin.ext
  match a with
  | ⟨0, _⟩ => rfl
  | ⟨1, _⟩ => refine Eq.trans ?_ hh; rfl
  | ⟨2, _⟩ => rfl

/-- The product into a zero accumulator at one entry: the sum over the rows of the tile. -/
theorem tile_product_apply (A : FVec Ideal S32x17x256 .f32) (B : FVec Ideal S32x256x256 .f32) (g : Fin 32) (j : Fin 17) (w : Fin 256) :
    matmul tileDot (some .fp32) A B (constant S32x17x256 .f32 0x00000000#32) (ix3 g j w)
      = ∑ h : Fin 256, A (ix3 g j h) * B (ix3 g h w) := by
  show FloatOps.matmul tileDot (some .fp32) A B (constant S32x17x256 .f32 0x00000000#32) (ix3 g j w) = _
  rw [Ideal.matmul_constant_zero_apply, ← Equiv.sum_comp (contrEquiv1 tileDot 256 rfl rfl).symm]
  refine Finset.sum_congr rfl fun h _ => ?_
  rw [tileDot_lhsIdx, tileDot_rhsIdx]

/-! ## The one-hot vector of a joint's row (or column) number -/

/-- Entry (g, j, h) of the one-hot array built from the 32 × 17 words `idx`: 1 when h is the word's value, else 0. -/
theorem onehot_apply (idx : Vec Ideal S32x17 .i32) (g : Fin 32) (j : Fin 17) (h : Fin 256) :
    (sitofp .f32 (extui 32 (cmpi .eq (iota .tc S32x17x256 32 [2] iota_S32x17x256_d2_w32)
        (broadcastTo S32x17x256 (shapeCast S32x17x1 (shapeCast S32x17 idx shapeCasts_S32x17_S32x17) shapeCasts_S32x17_S32x17x1)
          broadcasts_S32x17x1_S32x17x256)) natLt_1_32) : FVec Ideal S32x17x256 .f32) (ix3 g j h)
      = if h.val = (idx (ix2 g j)).toNat then 1 else 0 := by
  have e1 : iota .tc S32x17x256 32 [2] iota_S32x17x256_d2_w32 (ix3 g j h) = BitVec.ofNat 32 h.val :=
    iota_single_apply .tc S32x17x256 32 2 iota_S32x17x256_d2_w32 (ix3 g j h)
  have e2 : broadcastTo S32x17x256 (shapeCast S32x17x1 (shapeCast S32x17 idx shapeCasts_S32x17_S32x17) shapeCasts_S32x17_S32x17x1)
      broadcasts_S32x17x1_S32x17x256 (ix3 g j h) = idx (ix2 g j) := by
    rw [broadcastTo_apply _ broadcasts_S32x17x1_S32x17x256 (ix3 g j h) (ix3 g j 0) (fun a => match a with
        | ⟨0, _⟩ => by show g.val = if (32 : Nat) = 1 then 0 else g.val; rw [if_neg (by decide)]
        | ⟨1, _⟩ => by show j.val = if (17 : Nat) = 1 then 0 else j.val; rw [if_neg (by decide)]
        | ⟨2, _⟩ => by show 0 = if (1 : Nat) = 1 then 0 else _; rw [if_pos rfl]),
      shapeCast_apply _ shapeCasts_S32x17_S32x17x1 (ix3 g j 0) (ix2 g j) (by
        rw [Shape.rowMajor_val_two, Shape.rowMajor_val_three]
        show g.val * 17 + j.val = (g.val * 17 + j.val) * 1 + 0; omega),
      shapeCast_self]
  show FloatOps.sitofp (F := Ideal) .f32 ((IntOp.cmpi .eq (iota .tc S32x17x256 32 [2] iota_S32x17x256_d2_w32 (ix3 g j h))
      (broadcastTo S32x17x256 (shapeCast S32x17x1 (shapeCast S32x17 idx shapeCasts_S32x17_S32x17) shapeCasts_S32x17_S32x17x1)
        broadcasts_S32x17x1_S32x17x256 (ix3 g j h))).setWidth 32) = _
  rw [e1, e2]
  exact onehot h.val h.isLt _

/-! ## The body's stored value -/

/-- THE BODY AT AN INDEX: with every column number and row number below 256, each entry of the block the body stores
    is the sum over the 32 tiles and 17 joints of −log of the tile's entry at (row y, column x). -/
theorem pay_apply (xs ys : Vec Ideal S32x17 .i32) (tiles : FVec Ideal S32x256x256 .f32)
    (hx : ∀ g j, (xs (ix2 g j)).toNat < 256) (hy : ∀ g j, (ys (ix2 g j)).toNat < 256) (y : S1x8x128.Idx) :
    k0_pay1 (F := Ideal) xs ys tiles y
      = ∑ g : Fin 32, ∑ j : Fin 17,
          -(Ideal.log (tiles (ix3 g ⟨(ys (ix2 g j)).toNat, hy g j⟩ ⟨(xs (ix2 g j)).toNat, hx g j⟩))) := by
  unfold k0_pay1
  dsimp only
  rw [splat_apply, unit_casts_apply, sum_tiles_apply]
  refine Finset.sum_congr rfl fun g _ => ?_
  rw [column_cast_apply, sum_joints_apply]
  refine Finset.sum_congr rfl fun j _ => ?_
  show Ideal.ofBits .f32 0x00000000#32 - Ideal.log (multiReduction (F := Ideal) .add [2] S32x17 _ 0x00000000#32 reduces_S32x17x256_S32x17 (.inl rfl) rfl (ix2 g j)) = _
  rw [Ideal.ofBits_zero_f32, zero_sub, sum_cols_apply]
  congr 2
  have hrow : ∀ w : Fin 256,
      (matmul tileDot (some .fp32)
        (sitofp .f32 (extui 32 (cmpi .eq (iota .tc S32x17x256 32 [2] iota_S32x17x256_d2_w32)
          (broadcastTo S32x17x256 (shapeCast S32x17x1 (shapeCast S32x17 ys shapeCasts_S32x17_S32x17) shapeCasts_S32x17_S32x17x1)
            broadcasts_S32x17x1_S32x17x256)) natLt_1_32) : FVec Ideal S32x17x256 .f32)
        (shapeCast S32x256x256 tiles shapeCasts_S32x256x256_S32x256x256) (constant S32x17x256 .f32 0x00000000#32)) (ix3 g j w)
        = tiles (ix3 g ⟨(ys (ix2 g j)).toNat, hy g j⟩ w) := by
    intro w
    rw [tile_product_apply, shapeCast_self tiles shapeCasts_S32x256x256_S32x256x256]
    refine (Finset.sum_congr rfl fun h _ => ?_).trans (sum_onehot_mul _ (hy g j) (fun h => tiles (ix3 g h w)))
    rw [onehot_apply]
  calc ∑ w : Fin 256, _ = ∑ w : Fin 256, tiles (ix3 g ⟨(ys (ix2 g j)).toNat, hy g j⟩ w) * (if w.val = (xs (ix2 g j)).toNat then (1 : EReal) else 0) := by
        refine Finset.sum_congr rfl fun w _ => ?_
        show _ * _ = _
        rw [onehot_apply]
        exact congrArg (· * _) (hrow w)
    _ = _ := sum_mul_onehot _ (hx g j) (fun w => tiles (ix3 g ⟨(ys (ix2 g j)).toNat, hy g j⟩ w))

end Cert.KernelIdeal.Body

end
-- ==== Proof.Region.lean ====
/-
  The idealized kernel's result as the loss of its two argument arrays.

  Before the region the host lines round the keypoints up, convert them to words, split the x and the y coordinates,
  clip each into [0, 255] and lay them out as 512 × 17 arrays (tile r of the 512 is tile (r / 8, r mod 8) of the
  64 × 8), and view the heat maps as 512 tiles of 256 × 256.  Grid step t works on tiles 32 t … 32 t + 31: its three
  input blocks are rows 32 t + g of those arrays.  By the body's value, step t stores in every entry of block t of the
  16 × 8 × 128 output the sum over its 32 tiles of the tile's sum over the joints of −log of the picked heat-map
  value.  The 16 blocks tile the output.  After the region the host takes entry (t, 0, 0) of each block, adds the 16 of
  them to 0 and divides by 8704: the loss.
-/
import proofs.«402471_j75720273428986_3_alg».proof.Proof.Gen.KernelIdeal.Frame
import proofs.«402471_j75720273428986_3_alg».proof.Proof.Body
import proofs.«402471_j75720273428986_3_alg».proof.Proof.Words
import Idealize.ShloMosaic.Lib.Pipeline.Value
import Idealize.ShloMosaic.Lib.StableHlo.Run
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.HeatmapLoss

variable (m : (ℓ : Loc nD τ sig) → Buf (Elt Ideal) ℓ) (ρ : Dev nD → PrngReg)

/-- The keypoints and the heat maps as launched, on core `c`. -/
abbrev kpOf (c : Dev nD) : FVec Ideal SKp .f32 := m ((c : Thread nD τ).loc main_arg0)
abbrev hmOf (c : Dev nD) : FVec Ideal SHm .f32 := m ((c : Thread nD τ).loc main_arg1)

/-! ## The three arrays the region reads, as the host lines before it leave them -/

/-- The 512 × 17 column numbers: the clipped x words. -/
theorem xs_eq (c : Dev nD) : (V m c main_v8 : S512x17.Idx → BitVec 32) =
    shapeCast S512x17 (minsi (broadcastInDim S64x8x17 ![] bcast_S_S64x8x17 (id (constantI S_ 32 255#32)))
      (maxsi (broadcastInDim S64x8x17 ![] bcast_S_S64x8x17 (id (constantI S_ 32 0#32)))
        (shapeCast S64x8x17 (extractStridedSlice S64x8x17x1 ![0, 0, 0, 0] (fptosi 32 (Host.ceil (kpOf m c)))
          slices_S64x8x17x2_S64x8x17x1_0_0_0_0) shapeCasts_S64x8x17x1_S64x8x17))) shapeCasts_S64x8x17_S512x17 := by
  dsimp only [V, V0]
  simp only [hostOps0, hostOps0_1, hostOps0_2, hostOps0_3, hostOps0_4, List.flatten_cons, List.flatten_nil, List.append_nil,
    List.cons_append, List.nil_append]
  after_results
  rfl

/-- The 512 × 17 row numbers: the clipped y words. -/
theorem ys_eq (c : Dev nD) : (V m c main_v9 : S512x17.Idx → BitVec 32) =
    shapeCast S512x17 (minsi (broadcastInDim S64x8x17 ![] bcast_S_S64x8x17 (id (constantI S_ 32 255#32)))
      (maxsi (broadcastInDim S64x8x17 ![] bcast_S_S64x8x17 (id (constantI S_ 32 0#32)))
        (shapeCast S64x8x17 (extractStridedSlice S64x8x17x1 ![0, 0, 0, 1] (fptosi 32 (Host.ceil (kpOf m c)))
          slices_S64x8x17x2_S64x8x17x1_0_0_0_1) shapeCasts_S64x8x17x1_S64x8x17))) shapeCasts_S64x8x17_S512x17 := by
  dsimp only [V, V0]
  simp only [hostOps0, hostOps0_1, hostOps0_2, hostOps0_3, hostOps0_4, List.flatten_cons, List.flatten_nil, List.append_nil,
    List.cons_append, List.nil_append]
  after_results
  rfl

/-- The 512 tiles: the heat maps viewed 512 × 256 × 256. -/
theorem tiles_eq (c : Dev nD) : (V m c main_v10 : S512x256x256.Idx → EReal) =
    shapeCast S512x256x256 (hmOf m c) shapeCasts_S64x8x1x256x256_S512x256x256 := by
  dsimp only [V, V0]
  simp only [hostOps0, hostOps0_1, hostOps0_2, hostOps0_3, hostOps0_4, List.flatten_cons, List.flatten_nil, List.append_nil,
    List.cons_append, List.nil_append]
  after_results
  rfl

/-- A clipped keypoint word read out of the 512 × 17 layout: coordinate `k` of joint `j` of tile `r`. -/
theorem clipped_apply (kp : FVec Ideal SKp .f32) (k : Fin 2) (off : Fin 4 → Nat) (hoff : off = ![0, 0, 0, k.val])
    (hs : S64x8x17x2.Slices off S64x8x17x1) (r : Fin 512) (j : Fin 17) :
    shapeCast S512x17 (minsi (broadcastInDim S64x8x17 ![] bcast_S_S64x8x17 (id (constantI S_ 32 255#32)))
      (maxsi (broadcastInDim S64x8x17 ![] bcast_S_S64x8x17 (id (constantI S_ 32 0#32)))
        (shapeCast S64x8x17 (extractStridedSlice S64x8x17x1 off (fptosi 32 (Host.ceil kp)) hs)
          shapeCasts_S64x8x17x1_S64x8x17))) shapeCasts_S64x8x17_S512x17 (ix2 r j)
      = coord kp r j k := by
  subst hoff
  have hr := r.isLt
  rw [shapeCast_apply _ shapeCasts_S64x8x17_S512x17 (ix2 r j) (ix3 (rowB r) (rowV r) j) (by
    rw [Shape.rowMajor_val_two, Shape.rowMajor_val_three]
    show (r.val / 8 * 8 + r.val % 8) * 17 + j.val = r.val * 17 + j.val
    have := Nat.div_add_mod r.val 8; omega)]
  show IntOp.minsi 255#32 (IntOp.maxsi 0#32
    (shapeCast S64x8x17 (extractStridedSlice S64x8x17x1 ![0, 0, 0, k.val] (fptosi 32 (Host.ceil kp)) hs)
      shapeCasts_S64x8x17x1_S64x8x17 (ix3 (rowB r) (rowV r) j))) = _
  rw [shapeCast_apply _ shapeCasts_S64x8x17x1_S64x8x17 (ix3 (rowB r) (rowV r) j) (ix4 (rowB r) (rowV r) j 0) (by
      rw [Shape.rowMajor_val_three, Shape.rowMajor_val_four]
      show (((rowB r).val * 8 + (rowV r).val) * 17 + j.val) * 1 + 0 = ((rowB r).val * 8 + (rowV r).val) * 17 + j.val
      omega),
    extractStridedSlice_apply _ _ hs (ix4 (rowB r) (rowV r) j 0) (ix4 (rowB r) (rowV r) j k) (fun a => match a with
      | ⟨0, _⟩ => by show (rowB r).val = 0 + (rowB r).val; omega
      | ⟨1, _⟩ => by show (rowV r).val = 0 + (rowV r).val; omega
      | ⟨2, _⟩ => by show j.val = 0 + j.val; omega
      | ⟨3, _⟩ => by show k.val = k.val + 0; omega)]
  rfl

/-- Column number of joint `j` of tile `r`. -/
theorem xs_apply (c : Dev nD) (r : Fin 512) (j : Fin 17) : V m c main_v8 (ix2 r j) = coord (kpOf m c) r j 0 := by
  have e := congrFun (xs_eq m c) (ix2 r j)
  exact e.trans (clipped_apply (kpOf m c) 0 _ rfl slices_S64x8x17x2_S64x8x17x1_0_0_0_0 r j)

/-- Row number of joint `j` of tile `r`. -/
theorem ys_apply (c : Dev nD) (r : Fin 512) (j : Fin 17) : V m c main_v9 (ix2 r j) = coord (kpOf m c) r j 1 := by
  have e := congrFun (ys_eq m c) (ix2 r j)
  exact e.trans (clipped_apply (kpOf m c) 1 _ rfl slices_S64x8x17x2_S64x8x17x1_0_0_0_1 r j)

/-- Entry (h, w) of tile `r`. -/
theorem tiles_apply (c : Dev nD) (r : Fin 512) (h w : Fin 256) :
    V m c main_v10 (ix3 r h w) = hmOf m c (ix5 (rowB r) (rowV r) 0 h w) := by
  have e := congrFun (tiles_eq m c) (ix3 r h w)
  refine e.trans ?_
  have hr := r.isLt
  exact shapeCast_apply _ shapeCasts_S64x8x1x256x256_S512x256x256 (ix3 r h w) (ix5 (rowB r) (rowV r) 0 h w) (by
    rw [Shape.rowMajor_val_three, Shape.rowMajor_val_five]
    show ((((r.val / 8) * 8 + r.val % 8) * 1 + 0) * 256 + h.val) * 256 + w.val = (r.val * 256 + h.val) * 256 + w.val
    have := Nat.div_add_mod r.val 8
    have e : (r.val / 8) * 8 + r.val % 8 = r.val := by omega
    rw [Nat.mul_one, Nat.add_zero, e])

/-! ## The blocks of a grid step -/

/-- The printed index maps over the grid: step `t` takes block `t` along the leading axis of every window. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Tile `g` of step `t` is tile g + 32 t of the 512. -/
def tileOf (t : Fin cfg0.N) (g : Fin 32) : Fin 512 :=
  ⟨g.val + 32 * t.val, by have := g.isLt; have ht : t.val < 16 := N_0 ▸ t.isLt; omega⟩

/-- Step `t`'s three input blocks, at their literal types. -/
abbrev xblk (c : Dev nD) (t : Fin cfg0.N) : Vec Ideal S32x17 .i32 := iblk m c 0 t
abbrev yblk (c : Dev nD) (t : Fin cfg0.N) : Vec Ideal S32x17 .i32 := iblk m c 1 t
abbrev tblk (c : Dev nD) (t : Fin cfg0.N) : FVec Ideal S32x256x256 .f32 := iblk m c 2 t

/-- Step `t`'s block of column numbers. -/
theorem xblk_apply (c : Dev nD) (t : Fin cfg0.N) (g : Fin 32) (j : Fin 17) :
    xblk m c t (ix2 g j) = coord (kpOf m c) (tileOf t g) j 0 := by
  rw [← xs_apply]
  obtain ⟨e0, e1, -⟩ := index_facts t
  show V m c main_v8 (((cfg0.win 0).blk t).view.emb (ix2 g j)) = V m c main_v8 (ix2 (tileOf t g) j)
  refine congrArg (V m c main_v8) ?_
  funext a; apply Fin.ext
  match a with
  | ⟨0, _⟩ => show win0_0.index t (0 : Fin 2) * 32 + 1 * g.val = g.val + 32 * t.val; omega
  | ⟨1, _⟩ => show win0_0.index t (1 : Fin 2) * 17 + 1 * j.val = j.val; omega

/-- Step `t`'s block of row numbers. -/
theorem yblk_apply (c : Dev nD) (t : Fin cfg0.N) (g : Fin 32) (j : Fin 17) :
    yblk m c t (ix2 g j) = coord (kpOf m c) (tileOf t g) j 1 := by
  rw [← ys_apply]
  obtain ⟨-, -, e0, e1, -⟩ := index_facts t
  show V m c main_v9 (((cfg0.win 1).blk t).view.emb (ix2 g j)) = V m c main_v9 (ix2 (tileOf t g) j)
  refine congrArg (V m c main_v9) ?_
  funext a; apply Fin.ext
  match a with
  | ⟨0, _⟩ => show win0_1.index t (0 : Fin 2) * 32 + 1 * g.val = g.val + 32 * t.val; omega
  | ⟨1, _⟩ => show win0_1.index t (1 : Fin 2) * 17 + 1 * j.val = j.val; omega

/-- Step `t`'s block of tiles. -/
theorem tblk_apply (c : Dev nD) (t : Fin cfg0.N) (g : Fin 32) (h w : Fin 256) :
    tblk m c t (ix3 g h w) = hmOf m c (ix5 (rowB (tileOf t g)) (rowV (tileOf t g)) 0 h w) := by
  rw [← tiles_apply]
  obtain ⟨-, -, -, -, e0, e1, e2, -⟩ := index_facts t
  show V m c main_v10 (((cfg0.win 2).blk t).view.emb (ix3 g h w)) = V m c main_v10 (ix3 (tileOf t g) h w)
  refine congrArg (V m c main_v10) ?_
  funext a; apply Fin.ext
  match a with
  | ⟨0, _⟩ => show win0_2.index t (0 : Fin 3) * 32 + 1 * g.val = g.val + 32 * t.val; omega
  | ⟨1, _⟩ => show win0_2.index t (1 : Fin 3) * 256 + 1 * h.val = h.val; omega
  | ⟨2, _⟩ => show win0_2.index t (2 : Fin 3) * 256 + 1 * w.val = w.val; omega

/-! ## What a step writes back, and the output array -/

/-- Step `t`'s total: the sum over its 32 tiles of the tile's sum. -/
def stepSum (c : Dev nD) (t : Fin 16) : EReal :=
  ∑ g : Fin 32, tileSum (kpOf m c) (hmOf m c) ⟨g.val + 32 * t.val, by have := g.isLt; have := t.isLt; omega⟩

/-- The output array after the region: every entry of block `t` is step `t`'s total. -/
def outArr (c : Dev nD) : S16x8x128.Idx → EReal := fun i => stepSum m c ⟨(i 0).val, (i 0).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The picked value of joint `j` of tile `g` of step `t`, read out of the step's blocks. -/
theorem step_pick (c : Dev nD) (t : Fin cfg0.N) (g : Fin 32) (j : Fin 17)
    (hy : (yblk m c t (ix2 g j)).toNat < 256) (hx : (xblk m c t (ix2 g j)).toNat < 256) :
    tblk m c t (ix3 g ⟨(yblk m c t (ix2 g j)).toNat, hy⟩ ⟨(xblk m c t (ix2 g j)).toNat, hx⟩)
      = picked (kpOf m c) (hmOf m c) (tileOf t g) j := by
  rw [tblk_apply]
  unfold picked
  refine congrArg (hmOf m c) ?_
  funext a; apply Fin.ext
  match a with
  | ⟨0, _⟩ => rfl
  | ⟨1, _⟩ => rfl
  | ⟨2, _⟩ => rfl
  | ⟨3, _⟩ => exact congrArg BitVec.toNat (yblk_apply m c t g j)
  | ⟨4, _⟩ => exact congrArg BitVec.toNat (xblk_apply m c t g j)

/-- The body's value at step `t`'s blocks. -/
theorem step_value (c : Dev nD) (t : Fin cfg0.N) (y : S1x8x128.Idx) :
    k0_pay1 (F := Ideal) (xblk m c t) (yblk m c t) (tblk m c t) y = stepSum m c ⟨t.val, N_0 ▸ t.isLt⟩ := by
  have hx : ∀ g j, (xblk m c t (ix2 g j)).toNat < 256 := fun g j => by rw [xblk_apply]; exact clip_lt _
  have hy : ∀ g j, (yblk m c t (ix2 g j)).toNat < 256 := fun g j => by rw [yblk_apply]; exact clip_lt _
  refine (Body.pay_apply (xblk m c t) (yblk m c t) (tblk m c t) hx hy y).trans ?_
  unfold stepSum tileSum
  refine Finset.sum_congr rfl fun g _ => Finset.sum_congr rfl fun j _ => ?_
  exact congrArg (fun z => -(Ideal.log z)) (step_pick m c t g j (hy g j) (hx g j))

/-- WHAT STEP `t` WRITES BACK is block `t` of the output array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz3]
  simp only [View.ld_unit_zero (S := S32x17) hz2, View.ld_unit_zero (S := S32x256x256) hz3]
  obtain ⟨-, -, -, -, -, -, -, e0, e1, e2⟩ := index_facts t
  funext y
  show k0_pay1 (F := Ideal) (xblk m c t) (yblk m c t) (tblk m c t) y = outArr m c (((cfg0.win 3).blk t).view.emb y)
  rw [step_value]
  unfold outArr
  refine congrArg (stepSum m c) (Fin.ext ?_)
  show t.val = win0_3.index t (0 : Fin 3) * 1 + 1 * (y 0).val
  have hy0 : (y 0).val < 1 := (y 0).isLt
  omega

/-- An index of the output is in step `t`'s block iff each coordinate is in the block's range. -/
theorem mem_blk (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v11).slice (win0_3.rect t)).set ↔ _
  rw [View.set_slice_whole, Rect.mem_set_unit]
  exact Iff.rfl

/-- The 16 blocks tile the output: entry (t, ·, ·) is in step `t`'s block. -/
theorem cover (i : S16x8x128.Idx) : ∃ t : Fin cfg0.N, (cfg0.win 3).flush t = true ∧ i ∈ ((cfg0.win 3).blk t).view.set := by
  have h0 : (i 0).val < 16 := (i 0).isLt
  have h1 : (i 1).val < 8 := (i 1).isLt
  have h2 : (i 2).val < 128 := (i 2).isLt
  obtain ⟨T, hT⟩ : ∃ T : Fin cfg0.N, T.val = (i 0).val :=
    ⟨⟨(i 0).val, by rw [show cfg0.N = 16 from N_0]; exact h0⟩, rfl⟩
  refine ⟨T, flush0_3 T, ?_⟩
  rw [mem_blk]
  obtain ⟨-, -, -, -, -, -, -, e0, e1, e2⟩ := index_facts T
  intro a
  match a with
  | ⟨0, _⟩ => show win0_3.index T (0 : Fin 3) * 1 ≤ (i 0).val ∧ (i 0).val < win0_3.index T (0 : Fin 3) * 1 + 1; rw [e0]; omega
  | ⟨1, _⟩ => show win0_3.index T (1 : Fin 3) * 8 ≤ (i 1).val ∧ (i 1).val < win0_3.index T (1 : Fin 3) * 8 + 8; rw [e1]; omega
  | ⟨2, _⟩ => show win0_3.index T (2 : Fin 3) * 128 ≤ (i 2).val ∧ (i 2).val < win0_3.index T (2 : Fin 3) * 128 + 128; rw [e2]; omega

/-- THE OUTPUT ARRAY after the region. -/
theorem final (c : Dev nD) : (dats m 0 c).arrAt 3 cfg0.N = outArr m c :=
  (dats m 0 c).arrAt_eq_of_cover 3 (outArr m c) (fun t _ => flushed_eq m c t) cover

/-! ## The host lines after the region -/

/-- The result buffer after the run: the host's slice, sum and quotient of the output array. -/
theorem tail_eq (c : Dev nD) :
    (Pipeline.afterTail₀ cfgs (dats m) 0 (V0 m) [hostOps1] c main_v15 : S_.Idx → EReal)
      = Host.divf (F := Ideal) (Host.reduceAdd (F := Ideal) (shapeCast S16 (extractStridedSlice S16x1x1 ![0, 0, 0] (outArr m c) slices_S16x8x128_S16x1x1_0_0_0)
            shapeCasts_S16x1x1_S16) (constant (F := Ideal) S_ .f32 0x00000000#32) reducesTo_S16_S_d0 h_S_)
          (constant (F := Ideal) S_ .f32 0x46080000#32) := by
  unfold Pipeline.afterTail₀
  show StableHlo.after hostOps1 _ (Proc.devRef .tc main_v15) = _
  after_results
  rw [(Pipeline.withArrays_arr spec0 launch0.win.arr_inj c _ _ 3).trans (final m c)]
  rfl

/-- The 16 step totals, summed, are the sum over all 512 tiles. -/
theorem sum_steps (c : Dev nD) : ∑ t : Fin 16, stepSum m c t = ∑ r : Fin 512, tileSum (kpOf m c) (hmOf m c) r :=
  (sum_rows_16x32 (fun r => tileSum (kpOf m c) (hmOf m c) r)).symm

/-- THE KERNEL'S RESULT: the loss of the keypoints and heat maps as launched. -/
theorem result_eq (c : Dev nD) :
    (Pipeline.afterTail₀ cfgs (dats m) 0 (V0 m) [hostOps1] c main_v15 : S_.Idx → EReal) = fun _ => loss (kpOf m c) (hmOf m c) := by
  rw [tail_eq]
  funext i
  show Ideal.div (Host.reduceAdd (F := Ideal) (shapeCast S16 (extractStridedSlice S16x1x1 ![0, 0, 0] (outArr m c) slices_S16x8x128_S16x1x1_0_0_0)
      shapeCasts_S16x1x1_S16) (constant (F := Ideal) S_ .f32 0x00000000#32) reducesTo_S16_S_d0 h_S_ i) (Ideal.ofBits .f32 0x46080000#32) = _
  unfold loss
  congr 1
  simp only [Host.reduceAdd, Ideal.hostReduceAdd_def]
  rw [Ideal.hostReduceAdd_total reducesTo_S16_S_d0 (fun b => b.elim0)]
  show Ideal.ofBits .f32 0x00000000#32 + _ = _
  rw [Ideal.ofBits_zero_f32, ← sum_steps, ← Equiv.sum_comp (idxEquiv1 (n := 16)).symm]
  refine congrArg (fun z : EReal => 0 + z) (Finset.sum_congr rfl fun t _ => ?_)
  show shapeCast S16 (extractStridedSlice S16x1x1 ![0, 0, 0] (outArr m c) slices_S16x8x128_S16x1x1_0_0_0) shapeCasts_S16x1x1_S16 (ix1 t) = _
  rw [shapeCast_apply _ shapeCasts_S16x1x1_S16 (ix1 t) (ix3 t 0 0) (by
      rw [Shape.rowMajor_val_one, Shape.rowMajor_val_three]; show (t.val * 1 + 0) * 1 + 0 = t.val; omega),
    extractStridedSlice_apply _ _ slices_S16x8x128_S16x1x1_0_0_0 (ix3 t 0 0) (ix3 t 0 0) (fun a => match a with
      | ⟨0, _⟩ => by show t.val = 0 + t.val; omega
      | ⟨1, _⟩ => by show 0 = 0 + 0; rfl
      | ⟨2, _⟩ => by show 0 = 0 + 0; rfl)]
  rfl

/-! ## The run -/

/-- Every weakly fair execution of the idealized kernel's @main terminates with the result buffer at the loss of the
    argument arrays, which end unchanged. -/
theorem run : θ_run defs (onTc (τ := τ) (main (F := Ideal))) ⟨m, fun _ => 0, ρ⟩ fun r => ∀ c : Dev nD,
      r.2.mem ((c.tc : Thread nD τ).loc main_v15) = (fun _ => loss (kpOf m c) (hmOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Region

end
-- ==== Proof.LibIdxSum.lean ====
/-
  Sums over the index set of a literal rank-3 or rank-5 shape as iterated sums over the coordinates: the index set is
  the product of its coordinate ranges (the rank-2 case is the library's `ValueIdx.sum_idx2`), in any commutative
  additive monoid — the extended reals in particular, where no other law of sums is available.
-/
import Idealize.ShloMosaic.Lib.ValueIdx

namespace Cert.LibIdxSum

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

end Cert.LibIdxSum
-- ==== Proof.RefSide.lean ====
/-
  The idealized reference's result as the loss of its two argument arrays.

  The reference rounds the keypoints up, converts them to words, clips the x and the y words into [0, 255], and reads
  the heat maps, viewed 64 × 8 × 256 × 256, at the index vectors (b, v, y, x) — one gather whose index array is the
  concatenation of the tile numbers b and v (counted by iotas) and the clipped y and x.  jnp's indexing first adds
  the extent to a negative index: none of the four is negative, so that leaves them alone; and the gather clamps each
  into its axis: all four are inside already.  So the gather picks, for joint j of tile (b, v), the heat map's entry
  (b, v, 0, y, x).  Then −log of it, summed over all tiles and joints from 0, and the quotient by 8704.
-/
import proofs.«402471_j75720273428986_3_alg».proof.Proof.Gen.ReferenceIdeal.Read
import proofs.«402471_j75720273428986_3_alg».proof.Proof.Words
import proofs.«402471_j75720273428986_3_alg».proof.Proof.LibIdxSum
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.HeatmapLoss Cert.LibIdxSum

variable (kp : FVec Ideal S64x8x17x2 .f32) (hm : FVec Ideal S64x8x1x256x256 .f32)

/-! ## The clipped words -/

/-- The clipped x word of joint j of tile (b, v). -/
theorem xword_apply (b : Fin 64) (v : Fin 8) (j : Fin 17) :
    val_main_v4 (F := Ideal) kp (ix3 b v j) = clip (kpWord kp (ix4 b v j 0)) := by
  have e : idx_main_v2 (idx_main_v3 (ix3 b v j)) = ix4 b v j 0 := by
    funext a; apply Fin.ext
    have hb := b.isLt; have hv := v.isLt; have hj := j.isLt
    match a with
    | ⟨0, _⟩ => show ((b.val * 8 + v.val) * 17 + j.val) / 136 = b.val; omega
    | ⟨1, _⟩ => show ((b.val * 8 + v.val) * 17 + j.val) / 17 % 8 = v.val; omega
    | ⟨2, _⟩ => show ((b.val * 8 + v.val) * 17 + j.val) / 1 % 17 = j.val; omega
    | ⟨3, _⟩ => rfl
  simp only [val_main_v4_apply, val_main_call0_v4_apply, val_main_call0_v3_apply, val_main_c_0_apply, val_main_call0_v2_apply,
    val_main_call0_v1_apply, val_main_call0_v0_apply, val_main_c_apply, val_main_v3_apply, val_main_v2_apply, val_main_v1_apply,
    val_main_v0_apply, e]
  rfl

/-- The clipped y word of joint j of tile (b, v). -/
theorem yword_apply (b : Fin 64) (v : Fin 8) (j : Fin 17) :
    val_main_v7 (F := Ideal) kp (ix3 b v j) = clip (kpWord kp (ix4 b v j 1)) := by
  have e : idx_main_v5 (idx_main_v6 (ix3 b v j)) = ix4 b v j 1 := by
    funext a; apply Fin.ext
    have hb := b.isLt; have hv := v.isLt; have hj := j.isLt
    match a with
    | ⟨0, _⟩ => show ((b.val * 8 + v.val) * 17 + j.val) / 136 = b.val; omega
    | ⟨1, _⟩ => show ((b.val * 8 + v.val) * 17 + j.val) / 17 % 8 = v.val; omega
    | ⟨2, _⟩ => show ((b.val * 8 + v.val) * 17 + j.val) / 1 % 17 = j.val; omega
    | ⟨3, _⟩ => rfl
  simp only [val_main_v7_apply, val_main_call1_v4_apply, val_main_call1_v3_apply, val_main_c_2_apply, val_main_call1_v2_apply,
    val_main_call1_v1_apply, val_main_call1_v0_apply, val_main_c_1_apply, val_main_v6_apply, val_main_v5_apply, val_main_v1_apply,
    val_main_v0_apply, e]
  rfl

/-! ## The four components of an index vector -/

/-- The tile number b, not negative, is left alone. -/
theorem bword_apply (b : Fin 64) (v : Fin 8) (j : Fin 17) : val_main_v33 (F := Ideal) (ix3 b v j) = BitVec.ofNat 32 b.val := by
  simp only [val_main_v33_apply, val_main_v17_apply, val_main_v14_apply, val_main_v16_apply, val_main_v10_apply, val_main_v13_apply,
    val_main_v15_apply, val_main_c_3_apply, val_main_c_4_apply, val_main_v9_apply]
  show Scalar.select (IntOp.cmpi .slt (BitVec.ofNat 32 b.val) 0#32) (IntOp.addi (BitVec.ofNat 32 b.val) 64#32) (BitVec.ofNat 32 b.val) = _
  exact wrap_of_not_slt (ofNat_not_slt_zero _ (by have := b.isLt; omega))

/-- The tile number v likewise. -/
theorem vword_apply (b : Fin 64) (v : Fin 8) (j : Fin 17) : val_main_v34 (F := Ideal) (ix3 b v j) = BitVec.ofNat 32 v.val := by
  simp only [val_main_v34_apply, val_main_v22_apply, val_main_v19_apply, val_main_v21_apply, val_main_v12_apply, val_main_v18_apply,
    val_main_v20_apply, val_main_c_5_apply, val_main_c_6_apply, val_main_v11_apply]
  show Scalar.select (IntOp.cmpi .slt (BitVec.ofNat 32 v.val) 0#32) (IntOp.addi (BitVec.ofNat 32 v.val) 8#32) (BitVec.ofNat 32 v.val) = _
  exact wrap_of_not_slt (ofNat_not_slt_zero _ (by have := v.isLt; omega))

/-- The clipped y word, not negative, is left alone. -/
theorem ysel_apply (b : Fin 64) (v : Fin 8) (j : Fin 17) :
    val_main_v27 (F := Ideal) kp (ix3 b v j) = clip (kpWord kp (ix4 b v j 1)) := by
  simp only [val_main_v27_apply, val_main_v24_apply, val_main_v26_apply, val_main_v23_apply, val_main_v25_apply, val_main_c_7_apply,
    val_main_c_8_apply, yword_apply]
  exact wrap_of_not_slt (clip_not_slt_zero _)

/-- The clipped x word likewise. -/
theorem xsel_apply (b : Fin 64) (v : Fin 8) (j : Fin 17) :
    val_main_v32 (F := Ideal) kp (ix3 b v j) = clip (kpWord kp (ix4 b v j 0)) := by
  simp only [val_main_v32_apply, val_main_v29_apply, val_main_v31_apply, val_main_v28_apply, val_main_v30_apply, val_main_c_9_apply,
    val_main_c_10_apply, xword_apply]
  exact wrap_of_not_slt (clip_not_slt_zero _)

/-- Dropping the trailing unit axis of an index. -/
theorem drop_unit (I : S64x8x17x1.Idx → S64x8x17.Idx)
    (hI : ∀ i : S64x8x17x1.Idx, (I i 0).val = (i 0).val ∧ (I i 1).val = (i 1).val ∧ (I i 2).val = (i 2).val)
    (b : Fin 64) (v : Fin 8) (j : Fin 17) : I (ix4 b v j 0) = ix3 b v j := by
  obtain ⟨h0, h1, h2⟩ := hI (ix4 b v j 0)
  funext a; apply Fin.ext
  match a with
  | ⟨0, _⟩ => exact h0
  | ⟨1, _⟩ => exact h1
  | ⟨2, _⟩ => exact h2

/-- The four pieces the index array is concatenated from, along its last axis. -/
abbrev pieces : List ((s : Shape) × (s.Idx → BitVec 32)) :=
  [⟨S64x8x17x1, val_main_v35 (F := Ideal)⟩, ⟨S64x8x17x1, val_main_v36 (F := Ideal)⟩, ⟨S64x8x17x1, val_main_v37 (F := Ideal) kp⟩,
    ⟨S64x8x17x1, val_main_v38 (F := Ideal) kp⟩]

/-- The index array at (b, v, j, ·): the concatenation's four pieces. -/
theorem idxvec0 (b : Fin 64) (v : Fin 8) (j : Fin 17) : val_main_v39 (F := Ideal) kp (ix4 b v j 0) = BitVec.ofNat 32 b.val := by
  unfold val_main_v39
  show concatenate S64x8x17x4 3 (pieces kp) concatenates_S64x8x17x1_S64x8x17x1_S64x8x17x1_S64x8x17x1_S64x8x17x4_d3 (ix4 b v j 0) = _
  rw [concatenate_apply_piece (t := S64x8x17x4) (3 : Fin 4) (pieces kp) concatenates_S64x8x17x1_S64x8x17x1_S64x8x17x1_S64x8x17x1_S64x8x17x4_d3 (ix4 b v j 0)
    0 (by show (0 : Nat) < 4; omega) S64x8x17x1 (val_main_v35 (F := Ideal)) rfl rfl 0 rfl (ix4 b v j 0)
    (fun a h => match a, h with
      | ⟨0, _⟩, _ => rfl | ⟨1, _⟩, _ => rfl | ⟨2, _⟩, _ => rfl
      | ⟨3, _⟩, h => absurd (Fin.ext rfl) h) rfl,
    val_main_v35_apply, drop_unit idx_main_v35 (fun i => ⟨rfl, rfl, rfl⟩)]
  exact bword_apply b v j

theorem idxvec1 (b : Fin 64) (v : Fin 8) (j : Fin 17) : val_main_v39 (F := Ideal) kp (ix4 b v j 1) = BitVec.ofNat 32 v.val := by
  unfold val_main_v39
  show concatenate S64x8x17x4 3 (pieces kp) concatenates_S64x8x17x1_S64x8x17x1_S64x8x17x1_S64x8x17x1_S64x8x17x4_d3 (ix4 b v j 1) = _
  rw [concatenate_apply_piece (t := S64x8x17x4) (3 : Fin 4) (pieces kp) concatenates_S64x8x17x1_S64x8x17x1_S64x8x17x1_S64x8x17x1_S64x8x17x4_d3 (ix4 b v j 1)
    1 (by show (1 : Nat) < 4; omega) S64x8x17x1 (val_main_v36 (F := Ideal)) rfl rfl 1 rfl (ix4 b v j 0)
    (fun a h => match a, h with
      | ⟨0, _⟩, _ => rfl | ⟨1, _⟩, _ => rfl | ⟨2, _⟩, _ => rfl
      | ⟨3, _⟩, h => absurd (Fin.ext rfl) h) rfl,
    val_main_v36_apply, drop_unit idx_main_v36 (fun i => ⟨rfl, rfl, rfl⟩)]
  exact vword_apply b v j

theorem idxvec2 (b : Fin 64) (v : Fin 8) (j : Fin 17) :
    val_main_v39 (F := Ideal) kp (ix4 b v j 2) = clip (kpWord kp (ix4 b v j 1)) := by
  unfold val_main_v39
  show concatenate S64x8x17x4 3 (pieces kp) concatenates_S64x8x17x1_S64x8x17x1_S64x8x17x1_S64x8x17x1_S64x8x17x4_d3 (ix4 b v j 2) = _
  rw [concatenate_apply_piece (t := S64x8x17x4) (3 : Fin 4) (pieces kp) concatenates_S64x8x17x1_S64x8x17x1_S64x8x17x1_S64x8x17x1_S64x8x17x4_d3 (ix4 b v j 2)
    2 (by show (2 : Nat) < 4; omega) S64x8x17x1 (val_main_v37 (F := Ideal) kp) rfl rfl 2 rfl (ix4 b v j 0)
    (fun a h => match a, h with
      | ⟨0, _⟩, _ => rfl | ⟨1, _⟩, _ => rfl | ⟨2, _⟩, _ => rfl
      | ⟨3, _⟩, h => absurd (Fin.ext rfl) h) rfl,
    val_main_v37_apply, drop_unit idx_main_v37 (fun i => ⟨rfl, rfl, rfl⟩)]
  exact ysel_apply kp b v j

theorem idxvec3 (b : Fin 64) (v : Fin 8) (j : Fin 17) :
    val_main_v39 (F := Ideal) kp (ix4 b v j 3) = clip (kpWord kp (ix4 b v j 0)) := by
  unfold val_main_v39
  show concatenate S64x8x17x4 3 (pieces kp) concatenates_S64x8x17x1_S64x8x17x1_S64x8x17x1_S64x8x17x1_S64x8x17x4_d3 (ix4 b v j 3) = _
  rw [concatenate_apply_piece (t := S64x8x17x4) (3 : Fin 4) (pieces kp) concatenates_S64x8x17x1_S64x8x17x1_S64x8x17x1_S64x8x17x1_S64x8x17x4_d3 (ix4 b v j 3)
    3 (by show (3 : Nat) < 4; omega) S64x8x17x1 (val_main_v38 (F := Ideal) kp) rfl rfl 3 rfl (ix4 b v j 0)
    (fun a h => match a, h with
      | ⟨0, _⟩, _ => rfl | ⟨1, _⟩, _ => rfl | ⟨2, _⟩, _ => rfl
      | ⟨3, _⟩, h => absurd (Fin.ext rfl) h) rfl,
    val_main_v38_apply, drop_unit idx_main_v38 (fun i => ⟨rfl, rfl, rfl⟩)]
  exact xsel_apply kp b v j

/-! ## The gather -/

/-- The gather's dimension numbers: every operand axis indexed and collapsed, the index vector along the last axis. -/
abbrev pick4 : GatherDims S64x8x256x256 S64x8x17x4 S64x8x17 := gather_S64x8x256x256_S64x8x17x4_S64x8x17_n_0123_n_n_0123_3_1111

/-- Component `a` of the operand index the gather reads for result entry (b, v, j): word `a` of the index vector, read
    signed and clamped into axis `a`. -/
theorem pick4_coord (idx : IVec S64x8x17x4 32) (b : Fin 64) (v : Fin 8) (j : Fin 17) (a : Fin 4)
    (ha : a ∈ pick4.startIndexMap) (hc : a ∈ pick4.collapsedSliceDims) (a' : Fin 4) (haa : a'.val = a.val)
    (hpos : List.idxOf a pick4.startIndexMap = a.val) :
    (pick4.operandIdx (ix3 b v j) idx a).val
      = min (idx (ix4 b v j a')).toInt.toNat (S64x8x256x256.size a - pick4.sliceSizes a) := by
  show pick4.start (ix3 b v j) idx a + pick4.batchCoord (ix3 b v j) a + pick4.offCoord (ix3 b v j) a = _
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos ha]
  have hsi : pick4.siIdx (ix3 b v j) ⟨List.idxOf a pick4.startIndexMap, List.idxOf_lt_length_iff.2 ha⟩ = ix4 b v j a' := by
    funext q; refine Fin.ext ?_
    match q with
    | ⟨0, _⟩ => rfl
    | ⟨1, _⟩ => rfl
    | ⟨2, _⟩ => rfl
    | ⟨3, _⟩ => show List.idxOf a pick4.startIndexMap = a'.val; rw [hpos, haa]
  rw [hsi]

/-- The four-dimensional view's index (b, v, y, x) is the heat maps' index (b, v, 0, y, x). -/
theorem view_idx (b : Fin 64) (v : Fin 8) (y x : Fin 256) : idx_main_v8 (ix4 b v y x) = ix5 b v 0 y x := by
  have hb := b.isLt; have hv := v.isLt; have hy := y.isLt; have hx := x.isLt
  funext a; apply Fin.ext
  match a with
  | ⟨0, _⟩ => show (((b.val * 8 + v.val) * 256 + y.val) * 256 + x.val) / 524288 = b.val; omega
  | ⟨1, _⟩ => show (((b.val * 8 + v.val) * 256 + y.val) * 256 + x.val) / 65536 % 8 = v.val; omega
  | ⟨2, _⟩ => rfl
  | ⟨3, _⟩ => show (((b.val * 8 + v.val) * 256 + y.val) * 256 + x.val) / 256 % 256 = y.val; omega
  | ⟨4, _⟩ => show (((b.val * 8 + v.val) * 256 + y.val) * 256 + x.val) % 256 = x.val; omega

/-- The operand index the gather reads for result entry (b, v, j), from its four components. -/
theorem pick4_idx (idx : IVec S64x8x17x4 32) (b : Fin 64) (v : Fin 8) (j : Fin 17) (b' : Fin 64) (v' : Fin 8) (y x : Fin 256)
    (h0 : (pick4.operandIdx (ix3 b v j) idx 0).val = b'.val) (h1 : (pick4.operandIdx (ix3 b v j) idx 1).val = v'.val)
    (h2 : (pick4.operandIdx (ix3 b v j) idx 2).val = y.val) (h3 : (pick4.operandIdx (ix3 b v j) idx 3).val = x.val) :
    pick4.operandIdx (ix3 b v j) idx = ix4 b' v' y x := by
  funext a; apply Fin.ext
  match a with
  | ⟨0, _⟩ => exact h0
  | ⟨1, _⟩ => exact h1
  | ⟨2, _⟩ => exact h2
  | ⟨3, _⟩ => exact h3

/-- THE GATHER AT (b, v, j): the heat maps at (b, v, 0, y, x). -/
theorem gathered_apply (b : Fin 64) (v : Fin 8) (j : Fin 17) :
    val_main_v40 (F := Ideal) kp hm (ix3 b v j)
      = hm (ix5 b v 0 ⟨(clip (kpWord kp (ix4 b v j 1))).toNat, clip_lt _⟩ ⟨(clip (kpWord kp (ix4 b v j 0))).toNat, clip_lt _⟩) := by
  have c0 := pick4_coord (val_main_v39 (F := Ideal) kp) b v j 0 (by decide) (by decide) 0 rfl (by decide)
  have c1 := pick4_coord (val_main_v39 (F := Ideal) kp) b v j 1 (by decide) (by decide) 1 rfl (by decide)
  have c2 := pick4_coord (val_main_v39 (F := Ideal) kp) b v j 2 (by decide) (by decide) 2 rfl (by decide)
  have c3 := pick4_coord (val_main_v39 (F := Ideal) kp) b v j 3 (by decide) (by decide) 3 rfl (by decide)
  rw [idxvec0] at c0
  rw [idxvec1] at c1
  rw [idxvec2] at c2
  rw [idxvec3] at c3
  have hb := b.isLt; have hv := v.isLt
  have d0 : (pick4.operandIdx (ix3 b v j) (val_main_v39 (F := Ideal) kp) 0).val = b.val :=
    c0.trans (ofNat_clamp b.val _ (by omega) (by show b.val ≤ 64 - 1; omega))
  have d1 : (pick4.operandIdx (ix3 b v j) (val_main_v39 (F := Ideal) kp) 1).val = v.val :=
    c1.trans (ofNat_clamp v.val _ (by omega) (by show v.val ≤ 8 - 1; omega))
  have d2 : (pick4.operandIdx (ix3 b v j) (val_main_v39 (F := Ideal) kp) 2).val = (clip (kpWord kp (ix4 b v j 1))).toNat :=
    c2.trans (clip_clamp _)
  have d3 : (pick4.operandIdx (ix3 b v j) (val_main_v39 (F := Ideal) kp) 3).val = (clip (kpWord kp (ix4 b v j 0))).toNat :=
    c3.trans (clip_clamp _)
  show val_main_v8 (F := Ideal) hm (pick4.operandIdx (ix3 b v j) (val_main_v39 (F := Ideal) kp)) = _
  rw [pick4_idx (val_main_v39 (F := Ideal) kp) b v j b v ⟨_, clip_lt (kpWord kp (ix4 b v j 1))⟩ ⟨_, clip_lt (kpWord kp (ix4 b v j 0))⟩ d0 d1 d2 d3,
    val_main_v8_apply, view_idx]

/-! ## The result -/

/-- THE REFERENCE'S RESULT: the loss of the keypoints and heat maps. -/
theorem result_eq : val_main_v44 (F := Ideal) kp hm = fun _ => loss kp hm := by
  funext i
  rw [val_main_v44_apply]
  show Ideal.div (val_main_v43 (F := Ideal) kp hm i) (Ideal.ofBits .f32 0x46080000#32) = _
  unfold loss
  congr 1
  rw [val_main_v43_apply]
  show Ideal.ofBits .f32 0x00000000#32 + _ = _
  rw [Ideal.ofBits_zero_f32, sum_idx3, sum_rows_64x8]
  congr 1
  refine Finset.sum_congr rfl fun b _ => Finset.sum_congr rfl fun v _ => ?_
  unfold tileSum
  refine Finset.sum_congr rfl fun j _ => ?_
  rw [val_main_v42_apply, val_main_v41_apply, gathered_apply, picked_mk]
  rfl

end Cert.ReferenceIdeal.RefValue

end
-- ==== Proof.lean ====
/-
  The keypoint heat-map loss: for 64 × 8 tiles and 17 joints per tile, the mean over all joints of −log of the
  heat-map value at the joint's clipped position (row y, column x).

  The kernel picks that value without indexing: in each grid step, for 32 tiles at once, it multiplies the one-hot row
  vector of y into the tile (a batched matrix product), multiplies by the one-hot column vector of x and sums; it sums
  −log of the picked values over the step's tiles and joints, and the host adds the 16 steps' totals and divides by
  8704.  The reference gathers the values by index, sums −log of them and divides by 8704.

  On the extended reals the two agree on EVERY input: 0 · x = 0 and 1 · x = x hold at the infinities too, so the
  one-hot products select exactly the gathered entry (Proof/Words.lean, Proof/Body.lean); both programs clip the same
  words into [0, 255], which keeps the one-hot vectors one-hot and makes the reference's negative-index adjustment and
  the gather's clamp do nothing (Proof/RefSide.lean); 0 − log is −log; and the grouping of the 8704 terms into steps
  and tiles does not change the sum (Proof/Region.lean, Proof/Words.lean).  The precondition is not used.

  The three frames: the two kernels' are the generated frame certificates; the reference's is its generated run with the
  result dropped.  The idealization rewrote nothing, so `preserves` is `True`.
-/
import proofs.«402471_j75720273428986_3_alg».proof.Defs
import proofs.«402471_j75720273428986_3_alg».proof.Proof.Gen.Kernel
import proofs.«402471_j75720273428986_3_alg».proof.Proof.Gen.Kernel.Skeleton
import proofs.«402471_j75720273428986_3_alg».proof.Proof.Gen.Kernel.Launch
import proofs.«402471_j75720273428986_3_alg».proof.Proof.Gen.Kernel.Points
import proofs.«402471_j75720273428986_3_alg».proof.Proof.Gen.Kernel.Frame
import proofs.«402471_j75720273428986_3_alg».proof.Proof.Gen.KernelIdeal
import proofs.«402471_j75720273428986_3_alg».proof.Proof.Gen.KernelIdeal.Skeleton
import proofs.«402471_j75720273428986_3_alg».proof.Proof.Gen.KernelIdeal.Launch
import proofs.«402471_j75720273428986_3_alg».proof.Proof.Gen.KernelIdeal.Points
import proofs.«402471_j75720273428986_3_alg».proof.Proof.Gen.KernelIdeal.Frame
import proofs.«402471_j75720273428986_3_alg».proof.Proof.Gen.ReferenceIdeal
import proofs.«402471_j75720273428986_3_alg».proof.Proof.Gen.Pre_finite_inputs
import proofs.«402471_j75720273428986_3_alg».proof.Proof.Gen.ReferenceIdeal.Run
import proofs.«402471_j75720273428986_3_alg».proof.Proof.Gen.ReferenceIdeal.Read
import proofs.«402471_j75720273428986_3_alg».proof.Proof.Region
import proofs.«402471_j75720273428986_3_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the keypoints and the heat maps, both idealized programs end with the loss of those
    two arrays in their result buffer. -/
theorem algebraic : Cert.algebraic_KernelIdeal_ReferenceIdeal := by
  intro m ρ m' ρ' _ hagree
  refine ⟨fun c => fun _ => Cert.HeatmapLoss.loss (Cert.KernelIdeal.Region.kpOf m c) (Cert.KernelIdeal.Region.hmOf m c),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
